-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x40 .f32) (main_arg4 : FVec F S40 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg3
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S2x1600000 : Shape := ⟨2, ![2, 1600000]⟩
abbrev S1x1600000 : Shape := ⟨2, ![1, 1600000]⟩
abbrev S1600000 : Shape := ⟨1, ![1600000]⟩
abbrev S100000x64 : Shape := ⟨2, ![100000, 64]⟩
abbrev S2000x128 : Shape := ⟨2, ![2000, 128]⟩
abbrev S2000x64 : Shape := ⟨2, ![2000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x40 : Shape := ⟨2, ![100000, 40]⟩
abbrev S2000x40 : Shape := ⟨2, ![2000, 40]⟩
abbrev S1600000x40 : Shape := ⟨2, ![1600000, 40]⟩
abbrev S1x40 : Shape := ⟨2, ![1, 40]⟩

abbrev nBuf : Space → Nat
  | .hbm => 42
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x40, .f32⟩
  | .hbm, ⟨4, _⟩ => ⟨S40, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S1x64, .f32⟩
  | .hbm, ⟨25, _⟩ => ⟨S100000x64, .f32⟩
  | .hbm, ⟨26, _⟩ => ⟨S100000x40, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x40, .f32⟩
  | .hbm, ⟨36, _⟩ => ⟨S_, .f32⟩
  | .hbm, ⟨37, _⟩ => ⟨S100000x40, .f32⟩
  | .hbm, ⟨38, _⟩ => ⟨S1600000x1, .i32⟩
  | .hbm, ⟨39, _⟩ => ⟨S100000x40, .f32⟩
  | .hbm, ⟨40, _⟩ => ⟨S1x40, .f32⟩
  | .hbm, ⟨41, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S1x40, .f32⟩
  | .local _ .vmem, ⟨18, _⟩ => ⟨S2000x40, .f32⟩
  | .local _ .vmem, ⟨19, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x40_S64x40_0_0 : ∀ a, (![0, 0] : Fin 2 → Nat) a + S64x40.size a ≤ S64x40.size a
  h_S64x40 : 0 < S64x40.numel
  inb_S2000x40_S2000x40_0_0 : ∀ a, (![0, 0] : Fin 2 → Nat) a + S2000x40.size a ≤ S2000x40.size a
  h_S2000x40 : 0 < S2000x40.numel
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x40_S2000x40_1_0_0_1_n_n_wf : DotDims.WF S2000x64 S64x40 S2000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S100000x40.size a
  hwx3_0 : ∀ i : grid3.Coords, EltTy.bits .f32 = 32 ∨ (Rect.block (s := S100000x40) S2000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S100000x40.size a
  hwx3_2 : ∀ i : grid3.Coords, EltTy.bits .f32 = 32 ∨ (Rect.block (s := S100000x40) S2000x40.size (cc3_transform_2 i) (hinb3_2 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v16) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v27) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S2x1600000 : Shape := ⟨2, ![2, 1600000]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 47
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x40, .f32⟩
  | .hbm, ⟨4, _⟩ => ⟨S40, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S1x64, .f32⟩
  | .hbm, ⟨25, _⟩ => ⟨S100000x64, .f32⟩
  | .hbm, ⟨26, _⟩ => ⟨S100000x64, .f32⟩
  | .hbm, ⟨27, _⟩ => ⟨S_, .f32⟩
  | .hbm, ⟨28, _⟩ => ⟨S100000x64, .f32⟩
  | .hbm, ⟨29, _⟩ => ⟨S100000x64, .f32⟩
  | .hbm, ⟨30, _⟩ => ⟨S100000x40, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x40, .f32⟩
  | .hbm, ⟨40, _⟩ => ⟨S_, .f32⟩
  | .hbm, ⟨41, _⟩ => ⟨S100000x40, .f32⟩
  | .hbm, ⟨42, _⟩ => ⟨S1600000x1, .i32⟩
  | .hbm, ⟨43, _⟩ => ⟨S100000x40, .f32⟩
  | .hbm, ⟨44, _⟩ => ⟨S1x40, .f32⟩
  | .hbm, ⟨45, _⟩ => ⟨S100000x40, .f32⟩
  | .hbm, ⟨46, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.InputProjection.lean ====
/-
  The first projection, x·W₁, as one array.

  The node features x are a 100000 × 128 matrix, cut into 50 blocks of 2000 rows; the weights W₁ (128 × 64) are one
  block, the same at every grid point. Point t multiplies rows 2000·t … 2000·t + 1999 of x by W₁ and writes the
  2000 × 64 product to the same rows of the result. Read at the ideal values, where rounding to the narrow format is
  the identity and a product into a zero accumulator is the plain sum, entry (r, h) of point t's block is
  Σ_l x(2000·t + r, l)·W₁(l, h): block t of the one function (r, h) ↦ Σ_l x(r, l)·W₁(l, h). The 50 blocks tile the
  100000 rows, so after the last point the result array is that function.
-/
import proofs.«124414_j197568496077_1_alg».proof.Proof.Gen.KernelIdeal.Frame
import proofs.«124414_j197568496077_1_alg».proof.Proof.LibDenseLayer
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.InputProjection

open Cert.KernelIdeal Cert.KernelIdeal.Gen

variable (V : (c : Dev nD) → (b : Ref sig .tc) → Buf (Elt Ideal) ((c : Thread nD τ).loc b))

/-- The product of the node features with the first layer's weights: entry (r, h) is Σ_l x(r, l)·W₁(l, h). -/
def product (x : FVec Ideal S100000x128 .f32) (w : FVec Ideal S128x64 .f32) : FVec Ideal S100000x64 .f32 :=
  fun i => ∑ l : Fin 128, x (ix2 (i 0) l) * w (ix2 l (i 1))

theorem zeroOffsets : (![0, 0] : Fin 2 → Nat) = fun _ => 0 := funext fun a => by fin_cases a <;> rfl

/-- One point's payload at (p, q): row p of the feature block against column q of the weights. -/
theorem payload_apply (x0 : Vec Ideal S2000x128 .f32) (x1 : Vec Ideal S128x64 .f32) (p : Fin 2000) (q : Fin 64) :
    k0_pay1 x0 x1 (ix2 p q) = ∑ l : Fin 128, x0 (ix2 p l) * x1 (ix2 l q) := by
  unfold k0_pay1
  exact DenseLayer.matmul_rows_apply _ none _ _ p q

/-- Where each window's block sits at point t: the features' and the result's at row block t, the weights' at the origin. -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays the region finds. -/
theorem flushed_eq (c : Dev nD) (t : Fin cfg0.N) :
    (dat0 V c).flushed 2 t = ((cfg0.win 2).blk t).view.read (Elt Ideal) (product (V c main_arg0) (V c main_arg1)) := by
  show (cfg0.win 2).cut (grid0.coords t) ((dat0 V c).after 2 t) = _
  rw [after0_2]
  unfold out0_2
  rw [View.canon_unit_zero zeroOffsets]
  simp only [View.ld_unit_zero (S := S2000x128) zeroOffsets, View.ld_unit_zero (S := S128x64) zeroOffsets]
  obtain ⟨e0, e1, e2, e3, e4, e5⟩ := blockIndices t
  funext j
  obtain ⟨p, q, rfl⟩ : ∃ (p : Fin 2000) (q : Fin 64), j = ix2 p q := ⟨j 0, j 1, eq_ix2 j⟩
  show k0_pay1 (iblk0 V c 0 t) (iblk0 V c 1 t) (ix2 p q)
      = product (V c main_arg0) (V c main_arg1) (((cfg0.win 2).blk t).view.emb (ix2 p q))
  refine (payload_apply (iblk0 V c 0 t) (iblk0 V c 1 t) p q).trans ?_
  unfold product
  refine Finset.sum_congr rfl fun l _ => ?_
  have hx : (iblk0 V c 0 t : Vec Ideal S2000x128 .f32) (ix2 p l)
      = V c main_arg0 (ix2 ((((cfg0.win 2).blk t).view.emb (ix2 p q)) 0) l) := by
    show V c main_arg0 (((cfg0.win 0).blk t).view.emb (ix2 p l)) = _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * l.val = l.val; omega
  have hw : (iblk0 V c 1 t : Vec Ideal S128x64 .f32) (ix2 l q)
      = V c main_arg1 (ix2 l ((((cfg0.win 2).blk t).view.emb (ix2 p q)) 1)) := by
    show V c main_arg1 (((cfg0.win 1).blk t).view.emb (ix2 l q)) = _
    refine congrArg (V c main_arg1) (funext fun a => Fin.ext ?_)
    match a with
    | ⟨0, _⟩ => show win0_1.index t (0 : Fin 2) * 128 + 1 * l.val = l.val; omega
    | ⟨1, _⟩ => show win0_1.index t (1 : Fin 2) * 64 + 1 * q.val = win0_2.index t (1 : Fin 2) * 64 + 1 * q.val; omega
  rw [hx, hw]

/-- An index of the result is in point t's block iff its row is among rows 2000·t … 2000·t + 1999. -/
theorem mem_block (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v4).slice (win0_2.rect t)).set ↔ _
  rw [View.set_slice_whole, Rect.mem_set_unit]
  exact Iff.rfl

/-- Every row lies in the block of the point numbered by its row divided by 2000. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  refine ⟨⟨(i 0).val / 2000, by omega⟩, flush0_2 _, ?_⟩
  rw [mem_block]
  obtain ⟨-, -, -, -, e4, e5⟩ := blockIndices ⟨(i 0).val / 2000, by omega⟩
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ _ ∧ _ < (i 0).val / 2000 * 2000 + 2000; omega
  | ⟨1, _⟩ => show win0_2.index _ (1 : Fin 2) * 64 ≤ (i 1).val ∧ (i 1).val < win0_2.index _ (1 : Fin 2) * 64 + 64; rw [e5]; omega

/-- After the region the result array is the product of the two arrays the region found. -/
theorem final (c : Dev nD) : (dat0 V c).arrAt 2 cfg0.N = product (V c main_arg0) (V c main_arg1) :=
  (dat0 V c).arrAt_eq_of_cover 2 (product (V c main_arg0) (V c main_arg1)) (fun t _ => flushed_eq V c t) covered

end Cert.KernelIdeal.InputProjection

end
-- ==== Proof.HiddenActivation.lean ====
/-
  The hidden layer's bias and rectifier as one array.

  The aggregated features (100000 × 64) are cut into 50 blocks of 2000 rows; the bias is one row of 64 entries, the
  same block at every grid point. Point t adds the bias row to each of its 2000 rows and takes the maximum with zero,
  entry by entry: entry (r, h) of its block is max(a(2000·t + r, h) + b(h), 0), block t of the one function
  (r, h) ↦ max(a(r, h) + b(h), 0). The 50 blocks tile the rows, so after the last point the result array is that
  function.
-/
import proofs.«124414_j197568496077_1_alg».proof.Proof.Gen.KernelIdeal.Frame
import proofs.«124414_j197568496077_1_alg».proof.Proof.LibDenseLayer
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HiddenActivation

open Cert.KernelIdeal Cert.KernelIdeal.Gen

variable (V : (c : Dev nD) → (b : Ref sig .tc) → Buf (Elt Ideal) ((c : Thread nD τ).loc b))

/-- The bias row added to every row, then the rectifier: entry (r, h) is max(a(r, h) + b(h), 0). -/
def biasRelu (a : FVec Ideal S100000x64 .f32) (b : FVec Ideal S1x64 .f32) : FVec Ideal S100000x64 .f32 :=
  fun i => max (a i + b (ix2 (0 : Fin 1) (i 1))) 0

theorem zeroOffsets : (![0, 0] : Fin 2 → Nat) = fun _ => 0 := funext fun a => by fin_cases a <;> rfl

/-- One point's payload at (p, q): the block's entry plus the bias at column q, against zero. -/
theorem payload_apply (x0 : Vec Ideal S2000x64 .f32) (x1 : Vec Ideal S1x64 .f32) (p : Fin 2000) (q : Fin 64) :
    k1_pay1 x0 x1 (ix2 p q) = max (x0 (ix2 p q) + x1 (ix2 (0 : Fin 1) q)) 0 := by
  unfold k1_pay1
  rw [shapeCast_self, shapeCast_self]
  show max (x0 (ix2 p q) + broadcastTo S2000x64 x1 broadcasts_S1x64_S2000x64 (ix2 p q)) (Ideal.ofBits .f32 0x00000000#32) = _
  rw [broadcastTo_1b_ab_apply, Ideal.ofBits_zero_f32]

/-- Where each window's block sits at point t: the features' and the result's at row block t, the bias row at the origin. -/
theorem blockIndices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the biased, rectified array. -/
theorem flushed_eq (c : Dev nD) (t : Fin cfg1.N) :
    (dat1 V c).flushed 2 t = ((cfg1.win 2).blk t).view.read (Elt Ideal) (biasRelu (V c main_v14) (V c main_v15)) := by
  show (cfg1.win 2).cut (grid1.coords t) ((dat1 V c).after 2 t) = _
  rw [after1_2]
  unfold out1_2
  rw [View.canon_unit_zero zeroOffsets]
  simp only [View.ld_unit_zero (S := S2000x64) zeroOffsets, View.ld_unit_zero (S := S1x64) zeroOffsets]
  obtain ⟨e0, e1, e2, e3, e4, e5⟩ := blockIndices t
  funext j
  obtain ⟨p, q, rfl⟩ : ∃ (p : Fin 2000) (q : Fin 64), j = ix2 p q := ⟨j 0, j 1, eq_ix2 j⟩
  show k1_pay1 (iblk1 V c 0 t) (iblk1 V c 1 t) (ix2 p q)
      = biasRelu (V c main_v14) (V c main_v15) (((cfg1.win 2).blk t).view.emb (ix2 p q))
  refine (payload_apply (iblk1 V c 0 t) (iblk1 V c 1 t) p q).trans ?_
  unfold biasRelu
  have ha : (iblk1 V c 0 t : Vec Ideal S2000x64 .f32) (ix2 p q)
      = V c main_v14 (((cfg1.win 2).blk t).view.emb (ix2 p q)) := by
    show V c main_v14 (((cfg1.win 0).blk t).view.emb (ix2 p q)) = _
    refine congrArg (V c main_v14) (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 64 + 1 * q.val = win1_2.index t (1 : Fin 2) * 64 + 1 * q.val; omega
  have hb : (iblk1 V c 1 t : Vec Ideal S1x64 .f32) (ix2 (0 : Fin 1) q)
      = V c main_v15 (ix2 (0 : Fin 1) ((((cfg1.win 2).blk t).view.emb (ix2 p q)) 1)) := by
    show V c main_v15 (((cfg1.win 1).blk t).view.emb (ix2 (0 : Fin 1) q)) = _
    refine congrArg (V c main_v15) (funext fun a => Fin.ext ?_)
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [ha, hb]

/-- An index of the result is in point t's block iff its row is among rows 2000·t … 2000·t + 1999. -/
theorem mem_block (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v16).slice (win1_2.rect t)).set ↔ _
  rw [View.set_slice_whole, Rect.mem_set_unit]
  exact Iff.rfl

/-- Every row lies in the block of the point numbered by its row divided by 2000. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 50 := N_1
  refine ⟨⟨(i 0).val / 2000, by omega⟩, flush1_2 _, ?_⟩
  rw [mem_block]
  obtain ⟨-, -, -, -, e4, e5⟩ := blockIndices ⟨(i 0).val / 2000, by omega⟩
  intro a
  match a with
  | ⟨0, _⟩ => show win1_2.index _ (0 : Fin 2) * 2000 ≤ (i 0).val ∧ (i 0).val < win1_2.index _ (0 : Fin 2) * 2000 + 2000; rw [e4]; show (i 0).val / 2000 * 2000 ≤ _ ∧ _ < (i 0).val / 2000 * 2000 + 2000; omega
  | ⟨1, _⟩ => show win1_2.index _ (1 : Fin 2) * 64 ≤ (i 1).val ∧ (i 1).val < win1_2.index _ (1 : Fin 2) * 64 + 64; rw [e5]; omega

/-- After the region the result array is the biased, rectified array of the two arrays the region found. -/
theorem final (c : Dev nD) : (dat1 V c).arrAt 2 cfg1.N = biasRelu (V c main_v14) (V c main_v15) :=
  (dat1 V c).arrAt_eq_of_cover 2 (biasRelu (V c main_v14) (V c main_v15)) (fun t _ => flushed_eq V c t) covered

end Cert.KernelIdeal.HiddenActivation

end
-- ==== Proof.OutputProjection.lean ====
/-
  The second projection, h·W₂, as one array.

  The hidden features h are a 100000 × 64 matrix, cut into 50 blocks of 2000 rows; the weights W₂ (64 × 40) are one
  block, the same at every grid point. Point t multiplies rows 2000·t … 2000·t + 1999 of h by W₂ and writes the
  2000 × 40 product to the same rows of the result. At the ideal values the rounding to the narrow format is the
  identity and the product into a zero accumulator is the plain sum, so entry (r, k) of point t's block is
  Σ_l h(2000·t + r, l)·W₂(l, k): block t of the one function (r, k) ↦ Σ_l h(r, l)·W₂(l, k). The 50 blocks tile the
  100000 rows, so after the last point the result array is that function.
-/
import proofs.«124414_j197568496077_1_alg».proof.Proof.Gen.KernelIdeal.Frame
import proofs.«124414_j197568496077_1_alg».proof.Proof.LibDenseLayer
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.OutputProjection

open Cert.KernelIdeal Cert.KernelIdeal.Gen

variable (V : (c : Dev nD) → (b : Ref sig .tc) → Buf (Elt Ideal) ((c : Thread nD τ).loc b))

/-- The product of the hidden features with the second layer's weights: entry (r, k) is Σ_l h(r, l)·W₂(l, k). -/
def product (h : FVec Ideal S100000x64 .f32) (w : FVec Ideal S64x40 .f32) : FVec Ideal S100000x40 .f32 :=
  fun i => ∑ l : Fin 64, h (ix2 (i 0) l) * w (ix2 l (i 1))

theorem zeroOffsets : (![0, 0] : Fin 2 → Nat) = fun _ => 0 := funext fun a => by fin_cases a <;> rfl

/-- One point's payload at (p, q): row p of the hidden block against column q of the weights. -/
theorem payload_apply (x0 : Vec Ideal S2000x64 .f32) (x1 : Vec Ideal S64x40 .f32) (p : Fin 2000) (q : Fin 40) :
    k2_pay1 x0 x1 (ix2 p q) = ∑ l : Fin 64, x0 (ix2 p l) * x1 (ix2 l q) := by
  unfold k2_pay1
  rw [shapeCast_self]
  exact DenseLayer.matmul_rows_apply _ none _ _ p q

/-- Where each window's block sits at point t: the hidden features' and the result's at row block t, the weights' at the origin. -/
theorem blockIndices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the arrays the region finds. -/
theorem flushed_eq (c : Dev nD) (t : Fin cfg2.N) :
    (dat2 V c).flushed 2 t = ((cfg2.win 2).blk t).view.read (Elt Ideal) (product (V c main_v16) (V c main_arg3)) := by
  show (cfg2.win 2).cut (grid2.coords t) ((dat2 V c).after 2 t) = _
  rw [after2_2]
  unfold out2_2
  rw [View.canon_unit_zero zeroOffsets]
  simp only [View.ld_unit_zero (S := S2000x64) zeroOffsets, View.ld_unit_zero (S := S64x40) zeroOffsets]
  obtain ⟨e0, e1, e2, e3, e4, e5⟩ := blockIndices t
  funext j
  obtain ⟨p, q, rfl⟩ : ∃ (p : Fin 2000) (q : Fin 40), j = ix2 p q := ⟨j 0, j 1, eq_ix2 j⟩
  show k2_pay1 (iblk2 V c 0 t) (iblk2 V c 1 t) (ix2 p q)
      = product (V c main_v16) (V c main_arg3) (((cfg2.win 2).blk t).view.emb (ix2 p q))
  refine (payload_apply (iblk2 V c 0 t) (iblk2 V c 1 t) p q).trans ?_
  unfold product
  refine Finset.sum_congr rfl fun l _ => ?_
  have hh : (iblk2 V c 0 t : Vec Ideal S2000x64 .f32) (ix2 p l)
      = V c main_v16 (ix2 ((((cfg2.win 2).blk t).view.emb (ix2 p q)) 0) l) := by
    show V c main_v16 (((cfg2.win 0).blk t).view.emb (ix2 p l)) = _
    refine congrArg (V c main_v16) (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 64 + 1 * l.val = l.val; omega
  have hw : (iblk2 V c 1 t : Vec Ideal S64x40 .f32) (ix2 l q)
      = V c main_arg3 (ix2 l ((((cfg2.win 2).blk t).view.emb (ix2 p q)) 1)) := by
    show V c main_arg3 (((cfg2.win 1).blk t).view.emb (ix2 l q)) = _
    refine congrArg (V c main_arg3) (funext fun a => Fin.ext ?_)
    match a with
    | ⟨0, _⟩ => show win2_1.index t (0 : Fin 2) * 64 + 1 * l.val = l.val; omega
    | ⟨1, _⟩ => show win2_1.index t (1 : Fin 2) * 40 + 1 * q.val = win2_2.index t (1 : Fin 2) * 40 + 1 * q.val; omega
  rw [hh, hw]

/-- An index of the result is in point t's block iff its row is among rows 2000·t … 2000·t + 1999. -/
theorem mem_block (t : Fin cfg2.N) (i : S100000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v17).slice (win2_2.rect t)).set ↔ _
  rw [View.set_slice_whole, Rect.mem_set_unit]
  exact Iff.rfl

/-- Every row lies in the block of the point numbered by its row divided by 2000. -/
theorem covered (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 50 := N_2
  refine ⟨⟨(i 0).val / 2000, by omega⟩, flush2_2 _, ?_⟩
  rw [mem_block]
  obtain ⟨-, -, -, -, e4, e5⟩ := blockIndices ⟨(i 0).val / 2000, by omega⟩
  intro a
  match a with
  | ⟨0, _⟩ => show win2_2.index _ (0 : Fin 2) * 2000 ≤ (i 0).val ∧ (i 0).val < win2_2.index _ (0 : Fin 2) * 2000 + 2000; rw [e4]; show (i 0).val / 2000 * 2000 ≤ _ ∧ _ < (i 0).val / 2000 * 2000 + 2000; omega
  | ⟨1, _⟩ => show win2_2.index _ (1 : Fin 2) * 40 ≤ (i 1).val ∧ (i 1).val < win2_2.index _ (1 : Fin 2) * 40 + 40; rw [e5]; omega

/-- After the region the result array is the product of the two arrays the region found. -/
theorem final (c : Dev nD) : (dat2 V c).arrAt 2 cfg2.N = product (V c main_v16) (V c main_arg3) :=
  (dat2 V c).arrAt_eq_of_cover 2 (product (V c main_v16) (V c main_arg3)) (fun t _ => flushed_eq V c t) covered

end Cert.KernelIdeal.OutputProjection

end
-- ==== Proof.OutputBias.lean ====
/-
  The output layer's bias as one array.

  The aggregated outputs (100000 × 40) are cut into 50 blocks of 2000 rows; the bias is one row of 40 entries, the
  same block at every grid point. Point t adds the bias row to each of its 2000 rows: entry (r, k) of its block is
  a(2000·t + r, k) + b(k), block t of the one function (r, k) ↦ a(r, k) + b(k). The 50 blocks tile the rows, so after
  the last point the result array is that function.
-/
import proofs.«124414_j197568496077_1_alg».proof.Proof.Gen.KernelIdeal.Frame
import proofs.«124414_j197568496077_1_alg».proof.Proof.LibDenseLayer
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.OutputBias

open Cert.KernelIdeal Cert.KernelIdeal.Gen

variable (V : (c : Dev nD) → (b : Ref sig .tc) → Buf (Elt Ideal) ((c : Thread nD τ).loc b))

/-- The bias row added to every row: entry (r, k) is a(r, k) + b(k). -/
def addBias (a : FVec Ideal S100000x40 .f32) (b : FVec Ideal S1x40 .f32) : FVec Ideal S100000x40 .f32 :=
  fun i => a i + b (ix2 (0 : Fin 1) (i 1))

theorem zeroOffsets : (![0, 0] : Fin 2 → Nat) = fun _ => 0 := funext fun a => by fin_cases a <;> rfl

/-- One point's payload at (p, q): the block's entry plus the bias at column q. -/
theorem payload_apply (x0 : Vec Ideal S2000x40 .f32) (x1 : Vec Ideal S1x40 .f32) (p : Fin 2000) (q : Fin 40) :
    k3_pay1 x0 x1 (ix2 p q) = x0 (ix2 p q) + x1 (ix2 (0 : Fin 1) q) := by
  unfold k3_pay1
  rw [shapeCast_self, shapeCast_self]
  show x0 (ix2 p q) + broadcastTo S2000x40 x1 broadcasts_S1x40_S2000x40 (ix2 p q) = _
  rw [broadcastTo_1b_ab_apply]

/-- Where each window's block sits at point t: the aggregate's and the result's at row block t, the bias row at the origin. -/
theorem blockIndices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the biased array. -/
theorem flushed_eq (c : Dev nD) (t : Fin cfg3.N) :
    (dat3 V c).flushed 2 t = ((cfg3.win 2).blk t).view.read (Elt Ideal) (addBias (V c main_v27) (V c main_v28)) := by
  show (cfg3.win 2).cut (grid3.coords t) ((dat3 V c).after 2 t) = _
  rw [after3_2]
  unfold out3_2
  rw [View.canon_unit_zero zeroOffsets]
  simp only [View.ld_unit_zero (S := S2000x40) zeroOffsets, View.ld_unit_zero (S := S1x40) zeroOffsets]
  obtain ⟨e0, e1, e2, e3, e4, e5⟩ := blockIndices t
  funext j
  obtain ⟨p, q, rfl⟩ : ∃ (p : Fin 2000) (q : Fin 40), j = ix2 p q := ⟨j 0, j 1, eq_ix2 j⟩
  show k3_pay1 (iblk3 V c 0 t) (iblk3 V c 1 t) (ix2 p q)
      = addBias (V c main_v27) (V c main_v28) (((cfg3.win 2).blk t).view.emb (ix2 p q))
  refine (payload_apply (iblk3 V c 0 t) (iblk3 V c 1 t) p q).trans ?_
  unfold addBias
  have ha : (iblk3 V c 0 t : Vec Ideal S2000x40 .f32) (ix2 p q)
      = V c main_v27 (((cfg3.win 2).blk t).view.emb (ix2 p q)) := by
    show V c main_v27 (((cfg3.win 0).blk t).view.emb (ix2 p q)) = _
    refine congrArg (V c main_v27) (funext fun a => Fin.ext ?_)
    match a with
    | ⟨0, _⟩ => show win3_0.index t (0 : Fin 2) * 2000 + 1 * p.val = win3_2.index t (0 : Fin 2) * 2000 + 1 * p.val; omega
    | ⟨1, _⟩ => show win3_0.index t (1 : Fin 2) * 40 + 1 * q.val = win3_2.index t (1 : Fin 2) * 40 + 1 * q.val; omega
  have hb : (iblk3 V c 1 t : Vec Ideal S1x40 .f32) (ix2 (0 : Fin 1) q)
      = V c main_v28 (ix2 (0 : Fin 1) ((((cfg3.win 2).blk t).view.emb (ix2 p q)) 1)) := by
    show V c main_v28 (((cfg3.win 1).blk t).view.emb (ix2 (0 : Fin 1) q)) = _
    refine congrArg (V c main_v28) (funext fun a => Fin.ext ?_)
    match a with
    | ⟨0, _⟩ => show win3_1.index t (0 : Fin 2) * 1 + 1 * 0 = 0; omega
    | ⟨1, _⟩ => show win3_1.index t (1 : Fin 2) * 40 + 1 * q.val = win3_2.index t (1 : Fin 2) * 40 + 1 * q.val; omega
  rw [ha, hb]

/-- An index of the result is in point t's block iff its row is among rows 2000·t … 2000·t + 1999. -/
theorem mem_block (t : Fin cfg3.N) (i : S100000x40.Idx) :
    i ∈ ((cfg3.win 2).blk t).view.set ↔ ∀ a : Fin 2, win3_2.index t a * S2000x40.size a ≤ (i a).val ∧ (i a).val < win3_2.index t a * S2000x40.size a + S2000x40.size a := by
  show i ∈ ((View.whole main_v29).slice (win3_2.rect t)).set ↔ _
  rw [View.set_slice_whole, Rect.mem_set_unit]
  exact Iff.rfl

/-- Every row lies in the block of the point numbered by its row divided by 2000. -/
theorem covered (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have hN : cfg3.N = 50 := N_3
  refine ⟨⟨(i 0).val / 2000, by omega⟩, flush3_2 _, ?_⟩
  rw [mem_block]
  obtain ⟨-, -, -, -, e4, e5⟩ := blockIndices ⟨(i 0).val / 2000, by omega⟩
  intro a
  match a with
  | ⟨0, _⟩ => show win3_2.index _ (0 : Fin 2) * 2000 ≤ (i 0).val ∧ (i 0).val < win3_2.index _ (0 : Fin 2) * 2000 + 2000; rw [e4]; show (i 0).val / 2000 * 2000 ≤ _ ∧ _ < (i 0).val / 2000 * 2000 + 2000; omega
  | ⟨1, _⟩ => show win3_2.index _ (1 : Fin 2) * 40 ≤ (i 1).val ∧ (i 1).val < win3_2.index _ (1 : Fin 2) * 40 + 40; rw [e5]; omega

/-- After the region the result array is the biased array of the two arrays the region found. -/
theorem final (c : Dev nD) : (dat3 V c).arrAt 2 cfg3.N = addBias (V c main_v27) (V c main_v28) :=
  (dat3 V c).arrAt_eq_of_cover 2 (addBias (V c main_v27) (V c main_v28)) (fun t _ => flushed_eq V c t) covered

end Cert.KernelIdeal.OutputBias

end
-- ==== Proof.Network.lean ====
/-
  The two-layer graph convolution as one function of its six arguments.

  Each layer multiplies the node features by its weights, sums over every edge (u → v) the product's row u into row v
  (a gather of the source rows followed by an accumulating scatter into the target rows, from zero), and adds its bias
  row; the first layer then takes the maximum with zero. The edge sum is the same host computation in both programs, so
  it is carried here as one named function of the edge list and of the array it is applied to, and never opened.
-/
import proofs.«124414_j197568496077_1_alg».proof.Proof.InputProjection
import proofs.«124414_j197568496077_1_alg».proof.Proof.HiddenActivation
import proofs.«124414_j197568496077_1_alg».proof.Proof.OutputProjection
import proofs.«124414_j197568496077_1_alg».proof.Proof.OutputBias

noncomputable section

open Idealize.ShloMosaic Idealize.ShloMosaic.TcCoe Idealize.ShloMosaic.ValueIdx

namespace Cert.KernelIdeal.Network

open Cert.KernelIdeal Cert.KernelIdeal.Facts₀ Cert.KernelIdeal.Facts

/-- The edge list: row 0 the source node of each edge, row 1 its target node. -/
abbrev Edges := (⟨S2x1600000, .i32⟩ : BufTy).Contents (Elt Ideal)

/-- The source node of each edge. -/
def sources (e : Edges) : (⟨S1600000, .i32⟩ : BufTy).Contents (Elt Ideal) :=
  shapeCast S1600000 (extractStridedSlice S1x1600000 ![0, 0] e slices_S2x1600000_S1x1600000_0_0) shapeCasts_S1x1600000_S1600000

/-- The target node of each edge. -/
def targets (e : Edges) : (⟨S1600000, .i32⟩ : BufTy).Contents (Elt Ideal) :=
  shapeCast S1600000 (extractStridedSlice S1x1600000 ![1, 0] e slices_S2x1600000_S1x1600000_1_0) shapeCasts_S1x1600000_S1600000

/-- The source nodes as a column of row indices, a negative one counted from the end. -/
def sourceColumn (e : Edges) : (⟨S1600000x1, .i32⟩ : BufTy).Contents (Elt Ideal) :=
  broadcastInDim S1600000x1 ![0] bcast_S1600000_S1600000x1_0
    (select (cmpi .slt (sources e) (broadcastInDim S1600000 ![] bcast_S_S1600000 (constantI S_ 32 0#32)))
      (addi (sources e) (broadcastInDim S1600000 ![] bcast_S_S1600000 (constantI S_ 32 100000#32))) (sources e))

/-- The target nodes as a column of row indices. -/
def targetColumn (e : Edges) : (⟨S1600000x1, .i32⟩ : BufTy).Contents (Elt Ideal) :=
  broadcastInDim S1600000x1 ![0] bcast_S1600000_S1600000x1_0 (targets e)

/-- The edge sum of a 64-column array: row v receives the sum of the rows u over the edges (u → v). -/
def edgeSum64 (e : Edges) (h : FVec Ideal S100000x64 .f32) : FVec Ideal S100000x64 .f32 :=
  Host.scatterAdd scatter_S100000x64_S1600000x1_S1600000x64_1_0_0_1
    (broadcastInDim S100000x64 ![] bcast_S_S100000x64 (constant S_ .f32 0x00000000#32)) (targetColumn e)
    (Host.gather gather_S100000x64_S1600000x1_S1600000x64_1_0_n_n_0_1_164 h (sourceColumn e))

/-- The edge sum of a 40-column array. -/
def edgeSum40 (e : Edges) (h : FVec Ideal S100000x40 .f32) : FVec Ideal S100000x40 .f32 :=
  Host.scatterAdd scatter_S100000x40_S1600000x1_S1600000x40_1_0_0_1
    (broadcastInDim S100000x40 ![] bcast_S_S100000x40 (constant S_ .f32 0x00000000#32)) (targetColumn e)
    (Host.gather gather_S100000x40_S1600000x1_S1600000x40_1_0_n_n_0_1_140 h (sourceColumn e))

/-- The first bias as one row of 64 entries. -/
def biasRow64 (b : FVec Ideal S64 .f32) : FVec Ideal S1x64 .f32 := shapeCast S1x64 b shapeCasts_S64_S1x64

/-- The second bias as one row of 40 entries. -/
def biasRow40 (b : FVec Ideal S40 .f32) : FVec Ideal S1x40 .f32 := shapeCast S1x40 b shapeCasts_S40_S1x40

/-- Entry h of the first bias row is entry h of the bias. -/
theorem biasRow64_apply (b : FVec Ideal S64 .f32) (h : Fin 64) : biasRow64 b (ix2 (0 : Fin 1) h) = b (ix1 h) :=
  shapeCast_a_1a_apply b shapeCasts_S64_S1x64 0 h

/-- Entry k of the second bias row is entry k of the bias. -/
theorem biasRow40_apply (b : FVec Ideal S40 .f32) (k : Fin 40) : biasRow40 b (ix2 (0 : Fin 1) k) = b (ix1 k) :=
  shapeCast_a_1a_apply b shapeCasts_S40_S1x40 0 k

/-- The hidden layer: max(edgeSum(x·W₁) + b₁, 0). -/
def hidden (x : FVec Ideal S100000x128 .f32) (w1 : FVec Ideal S128x64 .f32) (b1 : FVec Ideal S64 .f32) (e : Edges) :
    FVec Ideal S100000x64 .f32 :=
  HiddenActivation.biasRelu (edgeSum64 e (InputProjection.product x w1)) (biasRow64 b1)

/-- The network's output: edgeSum(hidden·W₂) + b₂. -/
def output (x : FVec Ideal S100000x128 .f32) (w1 : FVec Ideal S128x64 .f32) (b1 : FVec Ideal S64 .f32)
    (w2 : FVec Ideal S64x40 .f32) (b2 : FVec Ideal S40 .f32) (e : Edges) : FVec Ideal S100000x40 .f32 :=
  OutputBias.addBias (edgeSum40 e (OutputProjection.product (hidden x w1 b1 e) w2)) (biasRow40 b2)

end Cert.KernelIdeal.Network

end
-- ==== Proof.KernelValue.lean ====
/-
  What the kernel's program leaves in its result array.

  The program's buffer contents are followed boundary by boundary, from the launch to the return. A host stretch
  changes only the buffers its operations write; a region changes only its result array, which ends as that region's
  one function of the two arrays it read. Read in order: the first product x·W₁; the edge sum of it and the bias row;
  the biased, rectified hidden features; their product with W₂; the edge sum of that and the second bias row; the sum
  of the two. Every array met on the way is a function of the six arguments as launched, and the last one is the
  network's output.
-/
import proofs.«124414_j197568496077_1_alg».proof.Proof.Network
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Boundaries

open Cert.KernelIdeal Cert.KernelIdeal.Gen Cert.KernelIdeal.Network

variable (m : (ℓ : Loc nD τ sig) → Buf (Elt Ideal) ℓ) (ρ : Dev nD → PrngReg)

/-! ## Entering the first region: the edge list split into its two rows, the arguments untouched -/

theorem b1_arg0 (c : Dev nD) : W1 m ρ c (Proc.devRef .tc main_arg0) = m ((c : Thread nD τ).loc main_arg0) := by
  show StableHlo.after hostOps0 (W0 m ρ c) (Proc.devRef .tc main_arg0) = _
  after_results
theorem b1_arg1 (c : Dev nD) : W1 m ρ c (Proc.devRef .tc main_arg1) = m ((c : Thread nD τ).loc main_arg1) := by
  show StableHlo.after hostOps0 (W0 m ρ c) (Proc.devRef .tc main_arg1) = _
  after_results
theorem b1_arg2 (c : Dev nD) : W1 m ρ c (Proc.devRef .tc main_arg2) = m ((c : Thread nD τ).loc main_arg2) := by
  show StableHlo.after hostOps0 (W0 m ρ c) (Proc.devRef .tc main_arg2) = _
  after_results
theorem b1_arg3 (c : Dev nD) : W1 m ρ c (Proc.devRef .tc main_arg3) = m ((c : Thread nD τ).loc main_arg3) := by
  show StableHlo.after hostOps0 (W0 m ρ c) (Proc.devRef .tc main_arg3) = _
  after_results
theorem b1_arg4 (c : Dev nD) : W1 m ρ c (Proc.devRef .tc main_arg4) = m ((c : Thread nD τ).loc main_arg4) := by
  show StableHlo.after hostOps0 (W0 m ρ c) (Proc.devRef .tc main_arg4) = _
  after_results
theorem b1_sources (c : Dev nD) : W1 m ρ c (Proc.devRef .tc main_v1) = sources (m ((c : Thread nD τ).loc main_arg5)) := by
  show StableHlo.after hostOps0 (W0 m ρ c) (Proc.devRef .tc main_v1) = _
  after_results; rfl
theorem b1_targets (c : Dev nD) : W1 m ρ c (Proc.devRef .tc main_v3) = targets (m ((c : Thread nD τ).loc main_arg5)) := by
  show StableHlo.after hostOps0 (W0 m ρ c) (Proc.devRef .tc main_v3) = _
  after_results; rfl

/-! ## Leaving the first region: the product x·W₁ in its result array, every other buffer as entered -/

theorem b2_product (c : Dev nD) :
    W2 m ρ c (Proc.devRef .tc main_v4) = InputProjection.product (m ((c : Thread nD τ).loc main_arg0)) (m ((c : Thread nD τ).loc main_arg1)) :=
  calc W2 m ρ c (Proc.devRef .tc main_v4)
    _ = (dat0 (V1 m ρ) c).arrAt 2 cfg0.N := W2_arr m ρ c 2
    _ = InputProjection.product (W1 m ρ c (Proc.devRef .tc main_arg0)) (W1 m ρ c (Proc.devRef .tc main_arg1)) :=
        InputProjection.final (V1 m ρ) c
    _ = _ := by rw [b1_arg0, b1_arg1]
theorem b2_arg2 (c : Dev nD) : W2 m ρ c (Proc.devRef .tc main_arg2) = m ((c : Thread nD τ).loc main_arg2) :=
  (W2_of_ne m ρ c main_arg2 (by decide)).trans (b1_arg2 m ρ c)
theorem b2_arg3 (c : Dev nD) : W2 m ρ c (Proc.devRef .tc main_arg3) = m ((c : Thread nD τ).loc main_arg3) :=
  (W2_of_ne m ρ c main_arg3 (by decide)).trans (b1_arg3 m ρ c)
theorem b2_arg4 (c : Dev nD) : W2 m ρ c (Proc.devRef .tc main_arg4) = m ((c : Thread nD τ).loc main_arg4) :=
  (W2_of_ne m ρ c main_arg4 (by decide)).trans (b1_arg4 m ρ c)
theorem b2_sources (c : Dev nD) : W2 m ρ c (Proc.devRef .tc main_v1) = sources (m ((c : Thread nD τ).loc main_arg5)) :=
  (W2_of_ne m ρ c main_v1 (by decide)).trans (b1_sources m ρ c)
theorem b2_targets (c : Dev nD) : W2 m ρ c (Proc.devRef .tc main_v3) = targets (m ((c : Thread nD τ).loc main_arg5)) :=
  (W2_of_ne m ρ c main_v3 (by decide)).trans (b1_targets m ρ c)

/-! ## Entering the second region: the edge sum of the product, and the first bias as a row -/

theorem b3_edgeSum (c : Dev nD) :
    W3 m ρ c (Proc.devRef .tc main_v14) = edgeSum64 (m ((c : Thread nD τ).loc main_arg5)) (InputProjection.product (m ((c : Thread nD τ).loc main_arg0)) (m ((c : Thread nD τ).loc main_arg1))) := by
  show StableHlo.after hostOps1 (W2 m ρ c) (Proc.devRef .tc main_v14) = _
  after_results
  rw [b2_product, b2_sources, b2_targets]
  rfl
theorem b3_biasRow (c : Dev nD) :
    W3 m ρ c (Proc.devRef .tc main_v15) = biasRow64 (m ((c : Thread nD τ).loc main_arg2)) := by
  show StableHlo.after hostOps1 (W2 m ρ c) (Proc.devRef .tc main_v15) = _
  after_results
  rw [b2_arg2]
  rfl
theorem b3_arg3 (c : Dev nD) : W3 m ρ c (Proc.devRef .tc main_arg3) = m ((c : Thread nD τ).loc main_arg3) := by
  show StableHlo.after hostOps1 (W2 m ρ c) (Proc.devRef .tc main_arg3) = _
  after_results; exact b2_arg3 m ρ c
theorem b3_arg4 (c : Dev nD) : W3 m ρ c (Proc.devRef .tc main_arg4) = m ((c : Thread nD τ).loc main_arg4) := by
  show StableHlo.after hostOps1 (W2 m ρ c) (Proc.devRef .tc main_arg4) = _
  after_results; exact b2_arg4 m ρ c
theorem b3_sources (c : Dev nD) : W3 m ρ c (Proc.devRef .tc main_v1) = sources (m ((c : Thread nD τ).loc main_arg5)) := by
  show StableHlo.after hostOps1 (W2 m ρ c) (Proc.devRef .tc main_v1) = _
  after_results; exact b2_sources m ρ c
theorem b3_targets (c : Dev nD) : W3 m ρ c (Proc.devRef .tc main_v3) = targets (m ((c : Thread nD τ).loc main_arg5)) := by
  show StableHlo.after hostOps1 (W2 m ρ c) (Proc.devRef .tc main_v3) = _
  after_results; exact b2_targets m ρ c

/-! ## Leaving the second region: the hidden features -/

theorem b4_hidden (c : Dev nD) :
    W4 m ρ c (Proc.devRef .tc main_v16) = hidden (m ((c : Thread nD τ).loc main_arg0)) (m ((c : Thread nD τ).loc main_arg1)) (m ((c : Thread nD τ).loc main_arg2)) (m ((c : Thread nD τ).loc main_arg5)) :=
  calc W4 m ρ c (Proc.devRef .tc main_v16)
    _ = (dat1 (V3 m ρ) c).arrAt 2 cfg1.N := W4_arr m ρ c 2
    _ = HiddenActivation.biasRelu (W3 m ρ c (Proc.devRef .tc main_v14)) (W3 m ρ c (Proc.devRef .tc main_v15)) :=
        HiddenActivation.final (V3 m ρ) c
    _ = _ := by rw [b3_edgeSum, b3_biasRow]; rfl
theorem b4_arg3 (c : Dev nD) : W4 m ρ c (Proc.devRef .tc main_arg3) = m ((c : Thread nD τ).loc main_arg3) :=
  (W4_of_ne m ρ c main_arg3 (by decide)).trans (b3_arg3 m ρ c)
theorem b4_arg4 (c : Dev nD) : W4 m ρ c (Proc.devRef .tc main_arg4) = m ((c : Thread nD τ).loc main_arg4) :=
  (W4_of_ne m ρ c main_arg4 (by decide)).trans (b3_arg4 m ρ c)
theorem b4_sources (c : Dev nD) : W4 m ρ c (Proc.devRef .tc main_v1) = sources (m ((c : Thread nD τ).loc main_arg5)) :=
  (W4_of_ne m ρ c main_v1 (by decide)).trans (b3_sources m ρ c)
theorem b4_targets (c : Dev nD) : W4 m ρ c (Proc.devRef .tc main_v3) = targets (m ((c : Thread nD τ).loc main_arg5)) :=
  (W4_of_ne m ρ c main_v3 (by decide)).trans (b3_targets m ρ c)

/-! ## Leaving the third region: the hidden features times W₂ -/

theorem b5_product (c : Dev nD) :
    W5 m ρ c (Proc.devRef .tc main_v17)
      = OutputProjection.product (hidden (m ((c : Thread nD τ).loc main_arg0)) (m ((c : Thread nD τ).loc main_arg1)) (m ((c : Thread nD τ).loc main_arg2)) (m ((c : Thread nD τ).loc main_arg5))) (m ((c : Thread nD τ).loc main_arg3)) :=
  calc W5 m ρ c (Proc.devRef .tc main_v17)
    _ = (dat2 (V4 m ρ) c).arrAt 2 cfg2.N := W5_arr m ρ c 2
    _ = OutputProjection.product (W4 m ρ c (Proc.devRef .tc main_v16)) (W4 m ρ c (Proc.devRef .tc main_arg3)) :=
        OutputProjection.final (V4 m ρ) c
    _ = _ := by rw [b4_hidden, b4_arg3]
theorem b5_arg4 (c : Dev nD) : W5 m ρ c (Proc.devRef .tc main_arg4) = m ((c : Thread nD τ).loc main_arg4) :=
  (W5_of_ne m ρ c main_arg4 (by decide)).trans (b4_arg4 m ρ c)
theorem b5_sources (c : Dev nD) : W5 m ρ c (Proc.devRef .tc main_v1) = sources (m ((c : Thread nD τ).loc main_arg5)) :=
  (W5_of_ne m ρ c main_v1 (by decide)).trans (b4_sources m ρ c)
theorem b5_targets (c : Dev nD) : W5 m ρ c (Proc.devRef .tc main_v3) = targets (m ((c : Thread nD τ).loc main_arg5)) :=
  (W5_of_ne m ρ c main_v3 (by decide)).trans (b4_targets m ρ c)

/-! ## Entering the last region: the edge sum of the second product, and the second bias as a row -/

theorem b6_edgeSum (c : Dev nD) :
    W6 m ρ c (Proc.devRef .tc main_v27)
      = edgeSum40 (m ((c : Thread nD τ).loc main_arg5)) (OutputProjection.product (hidden (m ((c : Thread nD τ).loc main_arg0)) (m ((c : Thread nD τ).loc main_arg1)) (m ((c : Thread nD τ).loc main_arg2)) (m ((c : Thread nD τ).loc main_arg5))) (m ((c : Thread nD τ).loc main_arg3))) := by
  show StableHlo.after hostOps3 (W5 m ρ c) (Proc.devRef .tc main_v27) = _
  after_results
  rw [b5_product, b5_sources, b5_targets]
  rfl
theorem b6_biasRow (c : Dev nD) :
    W6 m ρ c (Proc.devRef .tc main_v28) = biasRow40 (m ((c : Thread nD τ).loc main_arg4)) := by
  show StableHlo.after hostOps3 (W5 m ρ c) (Proc.devRef .tc main_v28) = _
  after_results
  rw [b5_arg4]
  rfl

/-! ## At the return -/

/-- The result array at the return is the network's output of the six arguments as launched. -/
theorem result (c : Dev nD) :
    W7 m ρ c (Proc.devRef .tc main_v29)
      = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  calc W7 m ρ c (Proc.devRef .tc main_v29)
    _ = (dat3 (V6 m ρ) c).arrAt 2 cfg3.N := W7_arr m ρ c 2
    _ = OutputBias.addBias (W6 m ρ c (Proc.devRef .tc main_v27)) (W6 m ρ c (Proc.devRef .tc main_v28)) :=
        OutputBias.final (V6 m ρ) c
    _ = _ := by rw [b6_edgeSum, b6_biasRow]; rfl

end Cert.KernelIdeal.Boundaries

end
-- ==== Proof.RefValue.lean ====
/-
  The reference's result is the network's output.

  The reference computes each layer as a host product, the edge sum, and the bias laid along the rows by two broadcasts;
  the first layer's rectifier is a maximum with a broadcast zero. At the ideal values a host product read at (r, h) is
  Σ_l A(r, l)·B(l, h), the doubly broadcast bias read at (r, h) is the bias's entry h, and the zero word is the real 0;
  the edge sums are the network's own (the same operations on the same edge list). So, entry by entry, the reference's
  term is the network's output of the same six arrays.
-/
import proofs.«124414_j197568496077_1_alg».proof.Proof.Gen.ReferenceIdeal.Run
import proofs.«124414_j197568496077_1_alg».proof.Proof.Network

noncomputable section

open Idealize.ShloMosaic Idealize.ShloMosaic.TcCoe Idealize.ShloMosaic.ValueIdx

namespace Cert.ReferenceIdeal.RefValue

open Cert.ReferenceIdeal Cert.ReferenceIdeal.Facts₀ Cert.ReferenceIdeal.Facts

/-- The reference's first product is the network's. -/
theorem product1_eq (x : FVec Ideal S100000x128 .f32) (w1 : FVec Ideal S128x64 .f32) :
    Host.dotGeneral dot_S100000x128_S128x64_S100000x64_1_0_0_1_n_n none x w1 = Cert.KernelIdeal.InputProjection.product x w1 := by
  funext i
  obtain ⟨r, h, rfl⟩ : ∃ (r : Fin 100000) (h : Fin 64), i = ix2 r h := ⟨i 0, i 1, eq_ix2 i⟩
  refine (DenseLayer.dotGeneral_rows_apply _ none _ x w1 r h).trans ?_
  rfl

/-- The reference's second product is the network's. -/
theorem product2_eq (a : FVec Ideal S100000x64 .f32) (w2 : FVec Ideal S64x40 .f32) :
    Host.dotGeneral dot_S100000x64_S64x40_S100000x40_1_0_0_1_n_n none a w2 = Cert.KernelIdeal.OutputProjection.product a w2 := by
  funext i
  obtain ⟨r, k, rfl⟩ : ∃ (r : Fin 100000) (k : Fin 40), i = ix2 r k := ⟨i 0, i 1, eq_ix2 i⟩
  refine (DenseLayer.dotGeneral_rows_apply _ none _ a w2 r k).trans ?_
  rfl

/-- The reference's edge sum of a 64-column array is the network's. -/
theorem edgeSum64_eq (e : (⟨S2x1600000, .i32⟩ : BufTy).Contents (Elt Ideal)) (a : FVec Ideal S100000x64 .f32) :
    Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x64_S1600000x1_S1600000x64_1_0_n_n_0_1_164 a (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))
      = Cert.KernelIdeal.Network.edgeSum64 e a := rfl

/-- The reference's edge sum of a 40-column array is the network's. -/
theorem edgeSum40_eq (e : (⟨S2x1600000, .i32⟩ : BufTy).Contents (Elt Ideal)) (a : FVec Ideal S100000x40 .f32) :
    Host.scatterAdd scatter_S100000x40_S1600000x1_S1600000x40_1_0_0_1 (broadcastInDim S100000x40 ![] bcast_S_S100000x40 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x40_S1600000x1_S1600000x40_1_0_n_n_0_1_140 a (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))
      = Cert.KernelIdeal.Network.edgeSum40 e a := rfl

/-- The reference's bias and rectifier on a 64-column array are the network's. -/
theorem biasRelu_eq (a : FVec Ideal S100000x64 .f32) (b1 : FVec Ideal S64 .f32) :
    maximumf (addf a (broadcastInDim S100000x64 ![0, 1] bcast_S1x64_S100000x64_0_1 (broadcastInDim S1x64 ![1] bcast_S64_S1x64_1 b1))) (broadcastInDim S100000x64 ![] bcast_S_S100000x64 (constant S_ .f32 0x00000000#32))
      = Cert.KernelIdeal.HiddenActivation.biasRelu a (Cert.KernelIdeal.Network.biasRow64 b1) := by
  funext i
  obtain ⟨r, h, rfl⟩ : ∃ (r : Fin 100000) (h : Fin 64), i = ix2 r h := ⟨i 0, i 1, eq_ix2 i⟩
  show max (a (ix2 r h) + broadcastInDim S100000x64 ![0, 1] bcast_S1x64_S100000x64_0_1 (broadcastInDim S1x64 ![1] bcast_S64_S1x64_1 b1) (ix2 r h)) (Ideal.ofBits .f32 0x00000000#32)
    = max (a (ix2 r h) + Cert.KernelIdeal.Network.biasRow64 b1 (ix2 (0 : Fin 1) h)) 0
  rw [DenseLayer.bias_inDim_apply, Cert.KernelIdeal.Network.biasRow64_apply, Ideal.ofBits_zero_f32]

/-- The reference's bias on a 40-column array is the network's. -/
theorem addBias_eq (a : FVec Ideal S100000x40 .f32) (b2 : FVec Ideal S40 .f32) :
    addf a (broadcastInDim S100000x40 ![0, 1] bcast_S1x40_S100000x40_0_1 (broadcastInDim S1x40 ![1] bcast_S40_S1x40_1 b2))
      = Cert.KernelIdeal.OutputBias.addBias a (Cert.KernelIdeal.Network.biasRow40 b2) := by
  funext i
  obtain ⟨r, k, rfl⟩ : ∃ (r : Fin 100000) (k : Fin 40), i = ix2 r k := ⟨i 0, i 1, eq_ix2 i⟩
  show a (ix2 r k) + broadcastInDim S100000x40 ![0, 1] bcast_S1x40_S100000x40_0_1 (broadcastInDim S1x40 ![1] bcast_S40_S1x40_1 b2) (ix2 r k)
    = a (ix2 r k) + Cert.KernelIdeal.Network.biasRow40 b2 (ix2 (0 : Fin 1) k)
  rw [DenseLayer.bias_inDim_apply, Cert.KernelIdeal.Network.biasRow40_apply]

/-- The reference run's result term is the network's output of the same six arrays. -/
theorem result_eq (x : FVec Ideal S100000x128 .f32) (w1 : FVec Ideal S128x64 .f32) (b1 : FVec Ideal S64 .f32)
    (w2 : FVec Ideal S64x40 .f32) (b2 : FVec Ideal S40 .f32) (e : (⟨S2x1600000, .i32⟩ : BufTy).Contents (Elt Ideal)) :
    addf (Host.scatterAdd scatter_S100000x40_S1600000x1_S1600000x40_1_0_0_1 (broadcastInDim S100000x40 ![] bcast_S_S100000x40 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x40_S1600000x1_S1600000x40_1_0_n_n_0_1_140 (Host.dotGeneral dot_S100000x64_S64x40_S100000x40_1_0_0_1_n_n none (maximumf (addf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x64_S1600000x1_S1600000x64_1_0_n_n_0_1_164 (Host.dotGeneral dot_S100000x128_S128x64_S100000x64_1_0_0_1_n_n none x w1) (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))) (broadcastInDim S100000x64 ![0, 1] bcast_S1x64_S100000x64_0_1 (broadcastInDim S1x64 ![1] bcast_S64_S1x64_1 b1))) (broadcastInDim S100000x64 ![] bcast_S_S100000x64 (constant S_ .f32 0x00000000#32))) w2) (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))) (broadcastInDim S100000x40 ![0, 1] bcast_S1x40_S100000x40_0_1 (broadcastInDim S1x40 ![1] bcast_S40_S1x40_1 b2))
      = Cert.KernelIdeal.Network.output x w1 b1 w2 b2 e := by
  rw [product1_eq, edgeSum64_eq, biasRelu_eq, product2_eq, edgeSum40_eq, addBias_eq]
  rfl

end Cert.ReferenceIdeal.RefValue

end
-- ==== Proof.lean ====
/-
  A two-layer graph convolution, kernel against reference, over the extended reals.

  Both programs compute, for node features x, weights W₁, W₂, biases b₁, b₂ and an edge list,
      out = S(h·W₂) + b₂,   h = max(S(x·W₁) + b₁, 0),
  where S sums, into each node's row, the rows of that node's in-neighbours along the edge list. The kernel forms the two
  products and the two bias steps in four tiled regions of 50 row blocks each, with the edge sums as host operations
  between them; the reference forms everything on the host. At the ideal values a product into a zero accumulator, tiled
  or not, is the plain sum Σ_l A(r, l)·B(l, h); rounding the operands to a narrower format first is the identity; the
  bias read through a cast and a broadcast, or through two broadcasts, is the bias's entry at the column; and the zero
  word is the real 0. The edge sum S is literally the same host computation in both programs and is never opened. So the
  kernel's result array (followed boundary by boundary through its run) and the reference's result term are the same
  function of the six arguments, the network's output. No law of the extended reals beyond these readings is needed, so
  the finiteness of the inputs is not used. Each program's arguments end unchanged; the idealization rewrote nothing.
-/
import proofs.«124414_j197568496077_1_alg».proof.Defs
import proofs.«124414_j197568496077_1_alg».proof.Proof.Gen.Kernel
import proofs.«124414_j197568496077_1_alg».proof.Proof.Gen.Kernel.Skeleton
import proofs.«124414_j197568496077_1_alg».proof.Proof.Gen.Kernel.Launch
import proofs.«124414_j197568496077_1_alg».proof.Proof.Gen.Kernel.Points
import proofs.«124414_j197568496077_1_alg».proof.Proof.Gen.Kernel.Frame
import proofs.«124414_j197568496077_1_alg».proof.Proof.Gen.KernelIdeal
import proofs.«124414_j197568496077_1_alg».proof.Proof.Gen.KernelIdeal.Skeleton
import proofs.«124414_j197568496077_1_alg».proof.Proof.Gen.KernelIdeal.Launch
import proofs.«124414_j197568496077_1_alg».proof.Proof.Gen.KernelIdeal.Points
import proofs.«124414_j197568496077_1_alg».proof.Proof.Gen.KernelIdeal.Frame
import proofs.«124414_j197568496077_1_alg».proof.Proof.Gen.ReferenceIdeal
import proofs.«124414_j197568496077_1_alg».proof.Proof.Gen.ReferenceIdeal.Run
import proofs.«124414_j197568496077_1_alg».proof.Proof.Gen.Pre_finite_inputs
import proofs.«124414_j197568496077_1_alg».proof.Proof.KernelRun
import proofs.«124414_j197568496077_1_alg».proof.Proof.KernelValue
import proofs.«124414_j197568496077_1_alg».proof.Proof.RefValue
import Idealize.ShloMosaic.Adequacy
import Idealize.ShloMosaic.Init

noncomputable section

namespace Cert.Proof

open Idealize.ShloMosaic Idealize.SL.Sem

/-- The kernel as printed runs to the end and leaves its arguments as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network's output of the (agreeing) arguments in their result arrays. -/
theorem algebraic : Cert.algebraic_KernelIdeal_ReferenceIdeal := by
  intro m ρ m' ρ' _ hagree
  refine ⟨fun c => Cert.KernelIdeal.Network.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundaries.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact Cert.ReferenceIdeal.RefValue.result_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
